-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "c_32_15" .f32 0x40088889#32 ((32 / 15 : ℝ) : EReal)
  ∧ IdealRules.truncf_extf.Statement Cert.KernelIdeal.S32x4096 .f32 .bf16
  ∧ IdealRules.named_const.Statement Cert.KernelIdeal.κ "c_32_15" .f32 0x40088889#32 ((32 / 15 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S11008x4096 : Shape := ⟨2, ![11008, 4096]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel

variable [Facts]

def fn {F : FTy → Type} [FloatOps F] (main_arg0 : FVec F S32x4096 .f32) (main_arg1 : IVec S11008x4096 32) (main_arg2 : IVec S11008 32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  main_v3
-- ==== Kernel.lean ====
abbrev S32x4096 : Shape := ⟨2, ![32, 4096]⟩
abbrev S11008x4096 : Shape := ⟨2, ![11008, 4096]⟩
abbrev S11008 : Shape := ⟨1, ![11008]⟩
abbrev S1x11008 : Shape := ⟨2, ![1, 11008]⟩
abbrev S32x11008 : Shape := ⟨2, ![32, 11008]⟩
abbrev S640x4096 : Shape := ⟨2, ![640, 4096]⟩
abbrev S1x640 : Shape := ⟨2, ![1, 640]⟩
abbrev S32x640 : Shape := ⟨2, ![32, 640]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S11008, .i32⟩
  | .hbm, ⟨3, _⟩ => ⟨S1x11008, .i32⟩
  | .hbm, ⟨4, _⟩ => ⟨S32x11008, .f32⟩
  | .local _ .vmem, ⟨0, _⟩ => ⟨S32x4096, .f32⟩
  | .local _ .vmem, ⟨1, _⟩ => ⟨S640x4096, .i32⟩
  | .local _ .vmem, ⟨2, _⟩ => ⟨S640x4096, .i32⟩
  | .local _ .vmem, ⟨3, _⟩ => ⟨S1x640, .i32⟩
  | .local _ .vmem, ⟨4, _⟩ => ⟨S1x640, .i32⟩
  | .local _ .vmem, ⟨5, _⟩ => ⟨S32x640, .f32⟩
  | .local _ .vmem, ⟨6, _⟩ => ⟨S32x640, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S11008_S1x11008 : S11008.ShapeCasts S1x11008
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S640x4096_S640x4096_0_0 : ∀ a, (![0, 0] : Fin 2 → Nat) a + S640x4096.size a ≤ S640x4096.size a
  h_S640x4096 : 0 < S640x4096.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  reduces_S32x4096_S32 : S32x4096.Reduces [1] S32
  shapeCasts_S32_S32x1 : S32.ShapeCasts S32x1
  broadcasts_S32x1_S32x640 : S32x1.Broadcasts S32x640
  broadcasts_S1x640_S32x640 : S1x640.Broadcasts S32x640
  inb_S32x640_S32x640_0_0 : ∀ a, (![0, 0] : Fin 2 → Nat) a + S32x640.size a ≤ S32x640.size a
  h_S32x640 : 0 < S32x640.numel
  dot_S32x4096_S640x4096_S32x640_1_1_0_0_n_n_wf : DotDims.WF S32x4096 S640x4096 S32x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S640x4096.size a < S11008x4096.size a
  hwx0_1 : ∀ i : grid0.Coords, EltTy.bits .i32 = 32 ∨ (Rect.unit (s := S11008x4096) (fun a => cc0_transform_1 i a * S640x4096.size a) (fun a => (Pipeline.Clip.of (cc0_transform_1 i a) (S640x4096.size a) (S11008x4096.size a)).extent (S640x4096.size a)) fun a => Pipeline.Clip.inb (Pipeline.Clip.ok_of (hstart0_1 i a))).WholeWords (EltTy.packing .i32)
  hwxs0_1 : ∀ i : grid0.Coords, EltTy.bits .i32 = 32 ∨ (Rect.unit (s := S640x4096) (fun _ => 0) (fun a => (Pipeline.Clip.of (cc0_transform_1 i a) (S640x4096.size a) (S11008x4096.size a)).extent (S640x4096.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x640.size a < S1x11008.size a
  hwx0_2 : ∀ i : grid0.Coords, EltTy.bits .i32 = 32 ∨ (Rect.unit (s := S1x11008) (fun a => cc0_transform_2 i a * S1x640.size a) (fun a => (Pipeline.Clip.of (cc0_transform_2 i a) (S1x640.size a) (S1x11008.size a)).extent (S1x640.size a)) fun a => Pipeline.Clip.inb (Pipeline.Clip.ok_of (hstart0_2 i a))).WholeWords (EltTy.packing .i32)
  hwxs0_2 : ∀ i : grid0.Coords, EltTy.bits .i32 = 32 ∨ (Rect.unit (s := S1x640) (fun _ => 0) (fun a => (Pipeline.Clip.of (cc0_transform_2 i a) (S1x640.size a) (S1x11008.size a)).extent (S1x640.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x640.size a < S32x11008.size a
  hwx0_3 : ∀ i : grid0.Coords, EltTy.bits .f32 = 32 ∨ (Rect.unit (s := S32x11008) (fun a => cc0_transform_3 i a * S32x640.size a) (fun a => (Pipeline.Clip.of (cc0_transform_3 i a) (S32x640.size a) (S32x11008.size a)).extent (S32x640.size a)) fun a => Pipeline.Clip.inb (Pipeline.Clip.ok_of (hstart0_3 i a))).WholeWords (EltTy.packing .f32)
  hwxs0_3 : ∀ i : grid0.Coords, EltTy.bits .f32 = 32 ∨ (Rect.unit (s := S32x640) (fun _ => 0) (fun a => (Pipeline.Clip.of (cc0_transform_3 i a) (S32x640.size a) (S32x11008.size a)).extent (S32x640.size a)) fun a => (Nat.zero_add _).trans_le (Pipeline.Clip.extent_le (Pipeline.Clip.ok_of (hstart0_3 i a)))).WholeWords (EltTy.packing .f32)

variable [Facts₀]

def dot_S32x4096_S640x4096_S32x640_1_1_0_0_n_n : DotDims S32x4096 S640x4096 S32x640 where
  lhsContracting := [1]
  rhsContracting := [1]
  lhsNonContracting := [0]
  rhsNonContracting := [0]
  lhsBatch := []
  rhsBatch := []
  wf := dot_S32x4096_S640x4096_S32x640_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S640x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x640.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S32x640.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S11008x4096 : Shape := ⟨2, ![11008, 4096]⟩
abbrev S11008 : Shape := ⟨1, ![11008]⟩
abbrev S_ : Shape := ⟨0, ![]⟩
abbrev S32x11008 : Shape := ⟨2, ![32, 11008]⟩
abbrev S1x11008 : Shape := ⟨2, ![1, 11008]⟩

abbrev nBuf : Space → Nat
  | .hbm => 27
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S11008, .i32⟩
  | .hbm, ⟨3, _⟩ => ⟨S11008x4096, .f32⟩
  | .hbm, ⟨4, _⟩ => ⟨S_, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S11008x4096, .f32⟩
  | .hbm, ⟨9, _⟩ => ⟨S11008x4096, .f32⟩
  | .hbm, ⟨10, _⟩ => ⟨S_, .f32⟩
  | .hbm, ⟨11, _⟩ => ⟨S11008x4096, .f32⟩
  | .hbm, ⟨12, _⟩ => ⟨S11008x4096, .f32⟩
  | .hbm, ⟨13, _⟩ => ⟨S11008, .f32⟩
  | .hbm, ⟨14, _⟩ => ⟨S_, .f32⟩
  | .hbm, ⟨15, _⟩ => ⟨S11008, .f32⟩
  | .hbm, ⟨16, _⟩ => ⟨S11008, .f32⟩
  | .hbm, ⟨17, _⟩ => ⟨S_, .f32⟩
  | .hbm, ⟨18, _⟩ => ⟨S11008, .f32⟩
  | .hbm, ⟨19, _⟩ => ⟨S11008, .f32⟩
  | .hbm, ⟨20, _⟩ => ⟨S_, .f32⟩
  | .hbm, ⟨21, _⟩ => ⟨S11008, .f32⟩
  | .hbm, ⟨22, _⟩ => ⟨S11008, .f32⟩
  | .hbm, ⟨23, _⟩ => ⟨S32x11008, .f32⟩
  | .hbm, ⟨24, _⟩ => ⟨S1x11008, .f32⟩
  | .hbm, ⟨25, _⟩ => ⟨S32x11008, .f32⟩
  | .hbm, ⟨26, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S_S11008 : S_.BroadcastsInDim S11008 (![] : Fin 0 → Fin S11008.rank)
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  dot_S32x4096_S11008x4096_S32x11008_1_1_0_0_n_n_wf : DotDims.WF S32x4096 S11008x4096 S32x11008 [1] [1] [0] [0] [] []

variable [Facts₀]

def dot_S32x4096_S11008x4096_S32x11008_1_1_0_0_n_n : DotDims S32x4096 S11008x4096 S32x11008 where
  lhsContracting := [1]
  rhsContracting := [1]
  lhsNonContracting := [0]
  rhsNonContracting := [0]
  lhsBatch := []
  rhsBatch := []
  wf := dot_S32x4096_S11008x4096_S32x11008_1_1_0_0_n_n_wf

class Facts : Prop extends Facts₀ where

variable [Facts]
-- ==== Proof.KernelFrame.lean ====
/-
  The word-level kernel's frame: under any inputs the pipelined call runs to its end without a fault and leaves the
  three argument arrays as they were. Nothing is said of what the result array holds: the body's stored block is
  handed back unnamed, and only the input blocks are followed through the run.
-/
import proofs.«425147_j66176856097493_3_alg».proof.Proof.Gen.Kernel.Frame
import proofs.«425147_j66176856097493_3_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's four accesses: each the whole of its buffer -/

abbrev rX : Rect S32x4096 := Rect.unit (s := S32x4096) ![0, 0] S32x4096.size inb_S32x4096_S32x4096_0_0
abbrev rW : Rect S640x4096 := Rect.unit (s := S640x4096) ![0, 0] S640x4096.size inb_S640x4096_S640x4096_0_0
abbrev rB : Rect S1x640 := Rect.unit (s := S1x640) ![0, 0] S1x640.size inb_S1x640_S1x640_0_0
abbrev rO : Rect S32x640 := Rect.unit (s := S32x640) ![0, 0] S32x640.size inb_S32x640_S32x640_0_0

/-- What the result's buffer holds after the body, from what the three input buffers hold: its one store. -/
def outBlk (x0 : Vec F S32x4096 .f32) (x1 : Vec F S640x4096 .i32) (x2 : Vec F S1x640 .i32) : Vec F S32x640 .f32 :=
  View.canon [⟨rO, k0_pay1 (View.ld x0 rX) (View.ld x1 rW) (View.ld x2 rB)⟩]

/-- The one store covers the buffer. -/
theorem coverO (p0 : Vec F S32x640 .f32) (y : S32x640.Idx) :
    ∃ pc ∈ ([⟨rO, p0⟩] : List (View.Piece (Elt F) S32x640 .f32)), y ∈ pc.1.set :=
  View.cover_of_tiled [⟨rO, p0⟩] S32x640.size (by rfl) y

set_option maxHeartbeats 1000000 in
/-- The body's triple: from the three input buffers at `x0`, `x1`, `x2` and the result's at anything, to the inputs
    unchanged and the result's at `outBlk x0 x1 x2`. -/
theorem sound_kernel (c : Dev nD) (E : Set ℕ) (i : grid0.Coords)
    (arg1 : Memref sig .tc .vmem S32x4096 .f32) (harg1 : arg1.IsWhole) (arg2 : Memref sig .tc .vmem S640x4096 .i32) (harg2 : arg2.IsWhole)
    (arg3 : Memref sig .tc .vmem S1x640 .i32) (harg3 : arg3.IsWhole) (arg4 : Memref sig .tc .vmem S32x640 .f32) (harg4 : arg4.IsWhole)
    (x0 : Vec F S32x4096 .f32) (x1 : Vec F S640x4096 .i32) (x2 : Vec F S1x640 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlk x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

variable (m : (ℓ : Loc nD τ sig) → Buf (Elt F) ℓ) (ρ : Dev nD → PrngReg)

/-! ## The pipeline's proof data -/

/-- The result window is forgotten: the frame says nothing of what the body leaves there. -/
def forgets0 : Fin 4 → Bool := fun w => w.val == 3

/-- The proof data on core `c`: the arrays as the region finds them; after the body at point `t` the activation
    buffer at its block, the two code buffers at their blocks on the part inside the arrays (past the arrays' end
    a zero word that nothing reads), the result's buffer at contents nothing names; the invariant the scoped rest
    and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => 0#32) (iblk m c 1 t)
    | ⟨2, _⟩ => (cfg0.win 2).fill (cfg0.grid.coords t) (fun _ => 0#32) (iblk m c 2 t)
    | ⟨3, h⟩ => Pipeline.Dat.unnamed (cfg := cfg0) ⟨3, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) :
    (dats m 0 c).after 1 t = (cfg0.win 1).fill (cfg0.grid.coords t) (fun _ => 0#32) (iblk m c 1 t) := by dsimp only [dats]
theorem after0_2 (c : Dev nD) (t : Fin cfg0.N) :
    (dats m 0 c).after 2 t = (cfg0.win 2).fill (cfg0.grid.coords t) (fun _ => 0#32) (iblk m c 2 t) := by dsimp only [dats]

/-- The activation buffer holds its one block at every point: fetched at the first, left in place after. -/
theorem before0_0 (c : Dev nD) (t : Fin cfg0.N) (d) : (dats m 0 c).before 0 t d = iblk m c 0 t :=
  before0_0_of m (dats m 0 c) (A_eq m c 0) (after0_0 m c) t d

/-- The weight-code buffer is fetched at every point: its block on the part inside the array, `d` past its end. -/
theorem before0_1 (c : Dev nD) (t : Fin cfg0.N) (d) :
    (dats m 0 c).before 1 t d = (cfg0.win 1).fill (cfg0.grid.coords t) d (iblk m c 1 t) := by
  unfold Dat.before; rw [if_pos (fetch0_1 t)]
  unfold Dat.fetched Dat.blockOf iblk; rw [A_eq]

/-- The bias-code buffer likewise. -/
theorem before0_2 (c : Dev nD) (t : Fin cfg0.N) (d) :
    (dats m 0 c).before 2 t d = (cfg0.win 2).fill (cfg0.grid.coords t) d (iblk m c 2 t) := by
  unfold Dat.before; rw [if_pos (fetch0_2 t)]
  unfold Dat.fetched Dat.blockOf iblk; rw [A_eq]

/-! ## The body obligation, at a generic point -/

/-- What the body is called with at point `t`: the three input buffers at what the pipeline left in them, the
    result's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: the activation buffer at its block, each code buffer at its block on the part inside its array,
    the result's buffer at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

/-- The body at any point. The inputs' buffers hold their blocks, filled out past the arrays' end with whatever the
    fetch's overwrite left (`d`); the body reads them and leaves them so, and a block filled out with `d` agrees
    with the same block filled out with zero on the part inside the array, which is all a loose window states. The
    result's buffer is overwritten whole; nothing of it is named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-- The library's body obligation, at every point, the result window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- From any memory with zero counters every weakly fair execution of the program terminates, and every final state
    has every input array of the pipeline at its entry contents and every other unscoped buffer at what it held when
    the region was entered; nothing is stated of the result array. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- Every weakly fair execution of the program terminates, faults nowhere, and ends with the three argument arrays
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono ?_ (run_main m ρ)
  intro r h c
  -- the two staged inputs end at their entry contents, which are the launch contents: no host line writes them
  have h0 := Pipeline.RDat.FramePost.arr_in h c (0 : Fin 4) rfl
  have h1 := Pipeline.RDat.FramePost.arr_in h c (1 : Fin 4) rfl
  rw [Dat.toRForget_A] at h0 h1
  -- the bias array is staged by no window (its reshaped copy is): the region leaves it as it found it
  have h2 := (h c).2 main_arg2 (Pipeline.mem_restRefs_of main_arg2 (by decide) (by decide))
  exact ⟨h0.trans ((A_eq m c 0).trans (V_main_arg0 m c)), h1.trans ((A_eq m c 1).trans (V_main_arg1 m c)),
    h2.trans (V_main_arg2 m c)⟩

end Cert.Kernel.Hand

end
-- ==== Proof.KIBody.lean ====
/-
  The kernel body as one step of the pipeline: on whole staging buffers holding an activation block, a weight-code
  block and a bias-code block, the body loads the three, computes, and overwrites the whole result buffer with the one
  value it stores; the three input buffers are left as they were.
-/
import proofs.«425147_j66176856097493_3_alg».proof.Proof.Gen.KernelIdeal.Frame
import proofs.«425147_j66176856097493_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's four accesses: each the whole of its buffer -/

abbrev rX : Rect S32x4096 := Rect.unit (s := S32x4096) ![0, 0] S32x4096.size inb_S32x4096_S32x4096_0_0
abbrev rW : Rect S640x4096 := Rect.unit (s := S640x4096) ![0, 0] S640x4096.size inb_S640x4096_S640x4096_0_0
abbrev rB : Rect S1x640 := Rect.unit (s := S1x640) ![0, 0] S1x640.size inb_S1x640_S1x640_0_0
abbrev rO : Rect S32x640 := Rect.unit (s := S32x640) ![0, 0] S32x640.size inb_S32x640_S32x640_0_0

/-- What the result's buffer holds after the body, from what the three input buffers hold: its one store. -/
def outBlk (x0 : Vec F S32x4096 .f32) (x1 : Vec F S640x4096 .i32) (x2 : Vec F S1x640 .i32) : Vec F S32x640 .f32 :=
  View.canon [⟨rO, k0_pay1 (View.ld x0 rX) (View.ld x1 rW) (View.ld x2 rB)⟩]

/-- The one store covers the buffer. -/
theorem coverO (p0 : Vec F S32x640 .f32) (y : S32x640.Idx) :
    ∃ pc ∈ ([⟨rO, p0⟩] : List (View.Piece (Elt F) S32x640 .f32)), y ∈ pc.1.set :=
  View.cover_of_tiled [⟨rO, p0⟩] S32x640.size (by rfl) y

set_option maxHeartbeats 1000000 in
/-- The body's triple: from the three input buffers at `x0`, `x1`, `x2` and the result's at anything, to the inputs
    unchanged and the result's at `outBlk x0 x1 x2`. -/
theorem sound_kernel (c : Dev nD) (E : Set ℕ) (i : grid0.Coords)
    (arg1 : Memref sig .tc .vmem S32x4096 .f32) (harg1 : arg1.IsWhole) (arg2 : Memref sig .tc .vmem S640x4096 .i32) (harg2 : arg2.IsWhole)
    (arg3 : Memref sig .tc .vmem S1x640 .i32) (harg3 : arg3.IsWhole) (arg4 : Memref sig .tc .vmem S32x640 .f32) (harg4 : arg4.IsWhole)
    (x0 : Vec F S32x4096 .f32) (x1 : Vec F S640x4096 .i32) (x2 : Vec F S1x640 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlk x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

end Cert.KernelIdeal.Hand

end
-- ==== Proof.Spec.lean ====
/-
  The mathematics both programs compute, one output entry at a time.

  A weight or bias code is a 32-bit word read as the signed integer it spells. For a row `xs` of the activation
  matrix, a row `cs` of code words and one bias code `bw`:

  * the kernel's entry is  (32/15)·Σₖ xsₖ·cₖ − 16·Σₖ xsₖ + ((32/15)·b − 16)           (`foldedAt`),
  * the reference's entry is  Σₖ xsₖ·(cₖ/15·32 − 16) + (b/15·32 − 16)                  (`dequantAt`).

  Also the three float literals the two programs spell (15, 16 and 32) as the reals their bit patterns denote.
-/
import Idealize.ShloMosaic.PureOps.Ideal
import Idealize.ShloMosaic.Lib.ValueIdx

noncomputable section

open scoped BigOperators

namespace Cert.Posit

open Idealize.ShloMosaic

/-- A code word read as the signed integer it spells, as an extended real. -/
def code (w : BitVec 32) : EReal := ((w.toInt : ℝ) : EReal)

/-- The kernel's entry: the affine dequantisation folded out of the contraction. -/
def foldedAt (xs : Fin 4096 → EReal) (cs : Fin 4096 → BitVec 32) (bw : BitVec 32) : EReal :=
  ((∑ k : Fin 4096, xs k * code (cs k)) * ((32 / 15 : ℝ) : EReal) - (∑ k : Fin 4096, xs k) * ((16 : ℝ) : EReal))
    + (code bw * ((32 / 15 : ℝ) : EReal) - ((16 : ℝ) : EReal))

/-- The reference's entry: every code dequantised first, then the contraction and the bias. -/
def dequantAt (xs : Fin 4096 → EReal) (cs : Fin 4096 → BitVec 32) (bw : BitVec 32) : EReal :=
  (∑ k : Fin 4096, xs k * (Ideal.div (code (cs k)) ((15 : ℝ) : EReal) * ((32 : ℝ) : EReal) - ((16 : ℝ) : EReal)))
    + (Ideal.div (code bw) ((15 : ℝ) : EReal) * ((32 : ℝ) : EReal) - ((16 : ℝ) : EReal))

/-- The bit pattern of `15.0` denotes the real 15. -/
theorem ofBits_15 : Ideal.ofBits .f32 0x41700000#32 = ((15 : ℝ) : EReal) := by
  simp [Ideal.ofBits, Ideal.ieee, -EReal.coe_mul]; norm_num

/-- The bit pattern of `16.0` denotes the real 16. -/
theorem ofBits_16 : Ideal.ofBits .f32 0x41800000#32 = ((16 : ℝ) : EReal) := by
  simp [Ideal.ofBits, Ideal.ieee, -EReal.coe_mul]; norm_num

/-- The bit pattern of `32.0` denotes the real 32. -/
theorem ofBits_32 : Ideal.ofBits .f32 0x42000000#32 = ((32 : ℝ) : EReal) := by
  simp [Ideal.ofBits, Ideal.ieee, -EReal.coe_mul]; norm_num

end Cert.Posit

end
-- ==== Proof.KIData.lean ====
/-
  The proof data of the idealized kernel's one pipelined call, at the ideal instance.

  After the body at grid point `t` the activation window's buffer holds the whole activation matrix; the weight-code
  and bias-code windows' buffers hold their blocks at `t`, and since the last block of each overhangs its array, the
  part of the buffer past the array's end is filled out with the zero word (nothing reads it); the result window's
  buffer holds the body's stored value of those three. The whole result array the run is shown to end at is
  `Gout`: entry (p, n) is the folded form of activation row p, weight-code row n and bias code n.
-/
import proofs.«425147_j66176856097493_3_alg».proof.Proof.KIBody
import proofs.«425147_j66176856097493_3_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat Cfg Window cellOf)

variable (m : (ℓ : Loc nD τ sig) → Buf (Elt Ideal) ℓ) (ρ : Dev nD → PrngReg)

/-! ## The grid, decided once -/

/-- At every grid point: the activation block is the whole matrix; the weight-code block is rows 640·t onwards, all
    4096 columns; the bias-code block and the result block are columns 640·t onwards; and the three cut extents along
    the blocked axis agree (640, or 128 at the last point). -/
theorem grid_facts : ∀ t : Fin grid0.N,
    win0_1.index t 0 = t.val ∧ win0_1.index t 1 = 0 ∧ win0_2.index t 0 = 0 ∧ win0_2.index t 1 = t.val
    ∧ win0_3.index t 0 = 0 ∧ win0_3.index t 1 = t.val
    ∧ win0_1.xsize (grid0.coords t) 0 = (if t.val = 17 then 128 else 640) ∧ win0_1.xsize (grid0.coords t) 1 = 4096
    ∧ win0_2.xsize (grid0.coords t) 0 = 1 ∧ win0_2.xsize (grid0.coords t) 1 = (if t.val = 17 then 128 else 640)
    ∧ win0_3.xsize (grid0.coords t) 0 = 32 ∧ win0_3.xsize (grid0.coords t) 1 = (if t.val = 17 then 128 else 640) := by
  decide +kernel

/-! ## The blocks -/

/-- The weight-code window's buffer after the fetch at point `t`, filled out with zero words past the array's end. -/
def wB (c : Dev nD) (t : Fin cfg0.N) : Vec Ideal S640x4096 .i32 :=
  win0_1.fill (grid0.coords t) (fun _ => 0#32) (iblk m c 1 t)

/-- The bias-code window's likewise. -/
def bB (c : Dev nD) (t : Fin cfg0.N) : Vec Ideal S1x640 .i32 :=
  win0_2.fill (grid0.coords t) (fun _ => 0#32) (iblk m c 2 t)

/-- The one store covers the result's buffer from offset zero: the buffer ends at the stored value itself. -/
theorem outBlk_eq (x0 : Vec Ideal S32x4096 .f32) (x1 : Vec Ideal S640x4096 .i32) (x2 : Vec Ideal S1x640 .i32) :
    outBlk (F := Ideal) x0 x1 x2 = k0_pay1 (F := Ideal) x0 x1 x2 := by
  have hz : (![0, 0] : Fin 2 → Nat) = fun _ => 0 := funext fun a => by fin_cases a <;> rfl
  unfold outBlk
  rw [View.canon_unit_zero hz]
  simp only [View.ld_unit_zero (S := S32x4096) hz, View.ld_unit_zero (S := S640x4096) hz, View.ld_unit_zero (S := S1x640) hz]

/-- The body's stored value read at an entry: the folded form of activation row p, code row q of the weight block and
    the bias code at column q of the bias block. (Stated here as a proposition; proved where the payload is opened.) -/
def PayAt : Prop :=
  ∀ (x : Vec Ideal S32x4096 .f32) (w : Vec Ideal S640x4096 .i32) (b : Vec Ideal S1x640 .i32) (p : Fin 32) (q : Fin 640),
    k0_pay1 (F := Ideal) x w b (ix2 p q)
      = Cert.Posit.foldedAt (fun k => x (ix2 p k)) (fun k => w (ix2 q k)) (b (ix2 (0 : Fin 1) q))

/-! ## The proof data -/

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wB m c t
    | ⟨2, _⟩ => bB m c t
    | ⟨3, _⟩ => outBlk (F := Ideal) (iblk m c 0 t) (wB m c t) (bB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wB m c t := by dsimp only [dats]
theorem after0_2 (c : Dev nD) (t : Fin cfg0.N) : (dats m 0 c).after 2 t = bB m c t := by dsimp only [dats]
theorem after0_3 (c : Dev nD) (t : Fin cfg0.N) :
    (dats m 0 c).after 3 t = outBlk (F := Ideal) (iblk m c 0 t) (wB m c t) (bB m c t) := by dsimp only [dats]

/-! ## The whole result array -/

/-- The activation matrix, the weight codes and the (reshaped) bias codes as the call finds them. -/
abbrev xArr (c : Dev nD) : Vec Ideal S32x4096 .f32 := V m c main_arg0
abbrev wArr (c : Dev nD) : Vec Ideal S11008x4096 .i32 := V m c main_arg1
abbrev bArr (c : Dev nD) : Vec Ideal S1x11008 .i32 := V m c main_v0

/-- The result array the run ends at: entry (p, n) is the folded form of activation row p, code row n, bias code n. -/
def Gout (c : Dev nD) : Vec Ideal S32x11008 .f32 := fun j =>
  Cert.Posit.foldedAt (fun k => xArr m c (ix2 (j 0) k)) (fun k => wArr m c (ix2 (j 1) k)) (bArr m c (ix2 (0 : Fin 1) (j 1)))

end Cert.KernelIdeal.Hand

end
-- ==== Proof.KIOblig.lean ====
/-
  The body obligation of the idealized kernel's pipelined call, at the ideal instance, and the run it gives.

  When the body runs at point `t` the activation buffer holds the activation matrix, the two code buffers hold their
  blocks on the part inside the arrays and unnamed words past the arrays' end, and the result buffer holds anything.
  The body leaves the inputs as they were and the result buffer at its stored value. Entry (p, q) of that value depends
  only on code row q and bias column q, and an entry inside the array has its row and column inside the arrays too: so
  on the part the write-back moves, the stored value does not depend on the unnamed words.
-/
import proofs.«425147_j66176856097493_3_alg».proof.Proof.KIData

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What each buffer holds when the body runs -/

theorem before0_0 (c : Dev nD) (t : Fin cfg0.N) (d) : (dats m 0 c).before 0 t d = iblk m c 0 t :=
  before0_0_of m (dats m 0 c) (A_eq m c 0) (after0_0 m c) t d

/-- The weight-code buffer, fetched at every point: its block on the part inside the array, `d` elsewhere. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- The bias-code buffer likewise. -/
theorem before0_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq]

/-- The result buffer is written back at every point: the body finds anything in it. -/
theorem before0_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The stored value on the part inside the array -/

/-- Two fills agree wherever the transfer moves the entry. -/
theorem fill_congr_moved {G : Pipeline.Grid} (w : Window sig G) {α : Type} (i : G.Coords) (d d' : w.block.Idx → α)
    (g : (w.xblock i).Idx → α) (J : w.block.Idx) (h : w.moved i J = true) : w.fill i d g J = w.fill i d' g J := by
  unfold Window.fill; rw [dif_pos h, dif_pos h]

/-- On the part of the result block inside the array, the stored value does not depend on what fills the code buffers
    past the arrays' end. -/
theorem cut_out (hpay : PayAt) (t : Fin cfg0.N) (x : Vec Ideal S32x4096 .f32)
    (d1 d1' : Vec Ideal S640x4096 .i32) (d2 d2' : Vec Ideal S1x640 .i32)
    (g1 : (win0_1.xblock (grid0.coords t)).Idx → BitVec 32) (g2 : (win0_2.xblock (grid0.coords t)).Idx → BitVec 32) :
    win0_3.cut (grid0.coords t) (outBlk (F := Ideal) x (win0_1.fill (grid0.coords t) d1 g1) (win0_2.fill (grid0.coords t) d2 g2))
      = win0_3.cut (grid0.coords t) (outBlk (F := Ideal) x (win0_1.fill (grid0.coords t) d1' g1) (win0_2.fill (grid0.coords t) d2' g2)) := by
  funext j
  obtain ⟨-, -, -, -, -, -, hx10, hx11, hx20, hx21, hx30, hx31⟩ := grid_facts t
  have hj0 : (j 0).val < win0_3.xsize (grid0.coords t) 0 := (j 0).isLt
  have hj1 : (j 1).val < win0_3.xsize (grid0.coords t) 1 := (j 1).isLt
  have hp : (j 0).val < 32 := by rw [hx30] at hj0; exact hj0
  have hq : (j 1).val < 640 := by rw [hx31] at hj1; split at hj1 <;> omega
  have e : win0_3.xinj (grid0.coords t) j = ix2 (⟨(j 0).val, hp⟩ : Fin 32) (⟨(j 1).val, hq⟩ : Fin 640) :=
    funext fun a => match a with | ⟨0, _⟩ => rfl | ⟨1, _⟩ => rfl
  show outBlk (F := Ideal) x _ _ (win0_3.xinj (grid0.coords t) j) = outBlk (F := Ideal) x _ _ (win0_3.xinj (grid0.coords t) j)
  rw [outBlk_eq, outBlk_eq, e, hpay, hpay]
  have h2 : (fun k : Fin 4096 => win0_1.fill (grid0.coords t) d1 g1 (ix2 (⟨(j 1).val, hq⟩ : Fin 640) k))
      = fun k : Fin 4096 => win0_1.fill (grid0.coords t) d1' g1 (ix2 (⟨(j 1).val, hq⟩ : Fin 640) k) :=
    funext fun k => fill_congr_moved win0_1 _ d1 d1' g1 _ ((win0_1.moved_iff _ _).mpr fun a => match a with
      | ⟨0, _⟩ => by show (j 1).val < win0_1.xsize (grid0.coords t) 0; rw [hx10, ← hx31]; exact hj1
      | ⟨1, _⟩ => by show k.val < win0_1.xsize (grid0.coords t) 1; rw [hx11]; exact k.isLt)
  have h3 : win0_2.fill (grid0.coords t) d2 g2 (ix2 (0 : Fin 1) (⟨(j 1).val, hq⟩ : Fin 640))
      = win0_2.fill (grid0.coords t) d2' g2 (ix2 (0 : Fin 1) (⟨(j 1).val, hq⟩ : Fin 640)) :=
    fill_congr_moved win0_2 _ d2 d2' g2 _ ((win0_2.moved_iff _ _).mpr fun a => match a with
      | ⟨0, _⟩ => by show (0 : Nat) < win0_2.xsize (grid0.coords t) 0; rw [hx20]; exact Nat.one_pos
      | ⟨1, _⟩ => by show (j 1).val < win0_2.xsize (grid0.coords t) 1; rw [hx21, ← hx31]; exact hj1)
  rw [h2, h3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the activation buffer exactly, the three buffers of clipped windows on the part their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

theorem sound_body (hpay : PayAt) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (wB m c t) = iblk m c 1 t from win0_1.cut_fill _ _ _]
    iexact H1
  isplitl [H2]
  · iexists d2
    rw [show (cfg0.win 2).cut (cfg0.grid.coords t) (bB m c t) = iblk m c 2 t from win0_2.cut_fill _ _ _]
    iexact H2
  · iexists (outBlk (F := Ideal) (iblk m c 0 t) (win0_1.fill (grid0.coords t) d1 (iblk m c 1 t)) (win0_2.fill (grid0.coords t) d2 (iblk m c 2 t)))
    rw [show (cfg0.win 3).fill (cfg0.grid.coords t)
          (outBlk (F := Ideal) (iblk m c 0 t) (win0_1.fill (grid0.coords t) d1 (iblk m c 1 t)) (win0_2.fill (grid0.coords t) d2 (iblk m c 2 t)))
          ((cfg0.win 3).cut (cfg0.grid.coords t) (outBlk (F := Ideal) (iblk m c 0 t) (wB m c t) (bB m c t)))
        = outBlk (F := Ideal) (iblk m c 0 t) (win0_1.fill (grid0.coords t) d1 (iblk m c 1 t)) (win0_2.fill (grid0.coords t) d2 (iblk m c 2 t)) from
      win0_3.fill_congr_cut _ (cut_out hpay t _ _ _ _ _ _ _)]
    iexact H3

/-- The library's body obligation, at every point. -/
theorem body_obligation (hpay : PayAt) (c : Dev nD) :
    BodyObligationLoose (dats m 0 c) (defs₀ (F := Ideal)) Variants.none () Set.univ := fun t => by
  rw [bigSep_W0, bigSep_W0]
  exact sound_body m hpay c t

/-! ## The run -/

set_option backward.isDefEq.respectTransparency.types false in
/-- Every weakly fair execution terminates, and every final state has every array of the call at what the proof data
    computes and every other unscoped buffer as the call found it. -/
theorem run_main (hpay : PayAt) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m hpay c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KIRun.lean ====
/-
  The idealized kernel's run, read out at the argument arrays: the program terminates without a fault, the three
  arguments end unchanged, and the result array ends at `Kval` of them — entry (p, n) the folded form of activation
  row p, weight-code row n and bias code n. The bias reaches the call reshaped from [11008] to [1, 11008]; entry (0, n)
  of the reshaped array is entry n of the argument.
-/
import proofs.«425147_j66176856097493_3_alg».proof.Proof.KIOblig
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The result as one function of the three argument arrays. -/
def Kval (x : Vec Ideal S32x4096 .f32) (W : Vec Ideal S11008x4096 .i32) (b : Vec Ideal S11008 .i32) : Vec Ideal S32x11008 .f32 :=
  fun j => Cert.Posit.foldedAt (fun k => x (ix2 (j 0) k)) (fun k => W (ix2 (j 1) k)) (b (ix1 (j 1)))

/-- The bias codes as the call finds them: the argument, reshaped. -/
theorem bArr_eq (c : Dev nD) :
    (V m c main_v0 : S1x11008.Idx → BitVec 32)
      = shapeCast S1x11008 (m ((c.tc : Thread nD τ).loc main_arg2)) shapeCasts_S11008_S1x11008 := by
  dsimp only [V, hostOps0]; after_results; rfl

theorem bArr_apply (c : Dev nD) (n : Fin 11008) :
    bArr m c (ix2 (0 : Fin 1) n) = m ((c.tc : Thread nD τ).loc main_arg2) (ix1 n) := by
  show (V m c main_v0 : S1x11008.Idx → BitVec 32) (ix2 (0 : Fin 1) n) = _
  rw [bArr_eq]
  exact shapeCast_a_1a_apply _ _ 0 n

/-- The result array over the argument arrays. -/
theorem Gout_eq (c : Dev nD) :
    Gout m c = Kval (m ((c.tc : Thread nD τ).loc main_arg0)) (m ((c.tc : Thread nD τ).loc main_arg1)) (m ((c.tc : Thread nD τ).loc main_arg2)) := by
  funext j
  obtain ⟨p, n, rfl⟩ : ∃ (p : Fin 32) (n : Fin 11008), j = ix2 p n := ⟨j 0, j 1, eq_ix2 j⟩
  show Cert.Posit.foldedAt (fun k => V m c main_arg0 (ix2 p k)) (fun k => V m c main_arg1 (ix2 n k)) (bArr m c (ix2 (0 : Fin 1) n))
    = Cert.Posit.foldedAt (fun k => m ((c.tc : Thread nD τ).loc main_arg0) (ix2 p k))
        (fun k => m ((c.tc : Thread nD τ).loc main_arg1) (ix2 n k)) (m ((c.tc : Thread nD τ).loc main_arg2) (ix1 n))
  rw [bArr_apply m c n, V_main_arg0 m c, V_main_arg1 m c]

/-- The frame of the idealized kernel. -/
theorem frame (hpay : PayAt) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hpay)

/-- The run with the result named. -/
theorem run (hpay : PayAt) (hfin : ∀ c, (dats m 0 c).arrAt 3 cfg0.N = Gout m c) :
    θ_run defs (onTc (τ := τ) (main (F := Ideal))) ⟨m, fun _ => 0, ρ⟩ (fun r => ∀ c : Dev nD,
      r.2.mem ((c.tc : Thread nD τ).loc main_v1)
        = Kval (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((hfin c).trans (Gout_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ hpay)

end Cert.KernelIdeal.Hand

end
-- ==== Proof.KIFinal.lean ====
/-
  From blocks to the array: the result array after the run. At each grid point the pipeline writes the result
  buffer's part inside the array back onto columns 640·t … of the result array; every column lies in exactly the block
  of point ⌊column / 640⌋; and what the body stored at (p, q) of block t is the folded form of activation row p, weight
  code row 640·t + q and bias code 640·t + q. So the array ends at `Gout`.
-/
import proofs.«425147_j66176856097493_3_alg».proof.Proof.KIData

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The activation window: one block, the whole matrix -/

/-- The activation window's block index is zero on both axes at every point. -/
theorem x_index : ∀ t : Fin grid0.N, win0_0.index t 0 = 0 ∧ win0_0.index t 1 = 0 := by
  decide +kernel

/-! ## One block read per input window -/

/-- The activation block at any point, read at (p, k), is the activation matrix there. -/
theorem xblk_apply (c : Dev nD) (t : Fin cfg0.N) (p : Fin 32) (k : Fin 4096) :
    iblk m c 0 t (ix2 p k) = xArr m c (ix2 p k) := by
  unfold iblk
  rw [View.read_apply]
  show V m c main_arg0 (((cfg0.win 0).blk t).view.emb (ix2 p k)) = V m c main_arg0 (ix2 p k)
  refine congrArg _ (funext fun a => Fin.ext ?_)
  obtain ⟨e0, e1⟩ := x_index t
  match a with
  | ⟨0, _⟩ => show win0_0.index t 0 * 32 + 1 * p.val = p.val; rw [e0]; omega
  | ⟨1, _⟩ => show win0_0.index t 1 * 4096 + 1 * k.val = k.val; rw [e1]; omega

/-- Entry y of the weight-code block at point t is the weight-code array's entry at row 640·t + y₀, column y₁. -/
theorem wblk_apply (c : Dev nD) (t : Fin cfg0.N) (y : (win0_1.xblock (grid0.coords t)).Idx)
    (h0 : t.val * 640 + (y 0).val < 11008) (h1 : (y 1).val < 4096) :
    iblk m c 1 t y = wArr m c (ix2 ⟨t.val * 640 + (y 0).val, h0⟩ ⟨(y 1).val, h1⟩) := by
  unfold iblk
  rw [View.read_apply]
  show V m c main_arg1 (((cfg0.win 1).blk t).view.emb y) = V m c main_arg1 _
  refine congrArg _ (funext fun a => Fin.ext ?_)
  obtain ⟨e0, e1, -⟩ := grid_facts t
  match a with
  | ⟨0, _⟩ => show win0_1.index t 0 * 640 + 1 * (y 0).val = t.val * 640 + (y 0).val; rw [e0]; omega
  | ⟨1, _⟩ => show win0_1.index t 1 * 4096 + 1 * (y 1).val = (y 1).val; rw [e1]; omega

/-- Entry y of the bias-code block at point t is the bias-code array's entry at column 640·t + y₁. -/
theorem bblk_apply (c : Dev nD) (t : Fin cfg0.N) (y : (win0_2.xblock (grid0.coords t)).Idx)
    (h1 : t.val * 640 + (y 1).val < 11008) :
    iblk m c 2 t y = bArr m c (ix2 (0 : Fin 1) ⟨t.val * 640 + (y 1).val, h1⟩) := by
  unfold iblk
  rw [View.read_apply]
  show V m c main_v0 (((cfg0.win 2).blk t).view.emb y) = V m c main_v0 _
  refine congrArg _ (funext fun a => Fin.ext ?_)
  obtain ⟨-, -, e0, e1, -, -, -, -, x0, -⟩ := grid_facts t
  match a with
  | ⟨0, _⟩ =>
    have hy : (y 0).val < win0_2.xsize (grid0.coords t) 0 := (y 0).isLt
    rw [x0] at hy
    show win0_2.index t 0 * 1 + 1 * (y 0).val = 0; rw [e0]; omega
  | ⟨1, _⟩ => show win0_2.index t 1 * 640 + 1 * (y 1).val = t.val * 640 + (y 1).val; rw [e1]; omega

/-! ## The filled-out buffers at an entry the transfer moves -/

/-- Row q of the weight-code buffer at point t, for q inside the part the fetch fills, is row 640·t + q of the
    weight-code array. -/
theorem wB_apply (c : Dev nD) (t : Fin cfg0.N) (q : Fin 640) (k : Fin 4096)
    (hq : q.val < (if t.val = 17 then 128 else 640)) (h0 : t.val * 640 + q.val < 11008) :
    wB m c t (ix2 q k) = wArr m c (ix2 ⟨t.val * 640 + q.val, h0⟩ k) := by
  obtain ⟨-, -, -, -, -, -, x0, x1, -⟩ := grid_facts t
  have hm : win0_1.moved (grid0.coords t) (ix2 q k) = true := (win0_1.moved_iff _ _).mpr fun a => by
    match a with
    | ⟨0, _⟩ => show q.val < win0_1.xsize (grid0.coords t) 0; rw [x0]; exact hq
    | ⟨1, _⟩ => show k.val < win0_1.xsize (grid0.coords t) 1; rw [x1]; exact k.isLt
  unfold wB Window.fill
  rw [dif_pos hm]
  exact wblk_apply m c t _ h0 k.isLt

/-- Column q of the bias-code buffer at point t, for q inside the part the fetch fills, is column 640·t + q of the
    bias-code array. -/
theorem bB_apply (c : Dev nD) (t : Fin cfg0.N) (q : Fin 640)
    (hq : q.val < (if t.val = 17 then 128 else 640)) (h0 : t.val * 640 + q.val < 11008) :
    bB m c t (ix2 (0 : Fin 1) q) = bArr m c (ix2 (0 : Fin 1) ⟨t.val * 640 + q.val, h0⟩) := by
  obtain ⟨-, -, -, -, -, -, -, -, x0, x1, -⟩ := grid_facts t
  have hm : win0_2.moved (grid0.coords t) (ix2 (0 : Fin 1) q) = true := (win0_2.moved_iff _ _).mpr fun a => by
    match a with
    | ⟨0, _⟩ => show 0 < win0_2.xsize (grid0.coords t) 0; rw [x0]; exact Nat.one_pos
    | ⟨1, _⟩ => show q.val < win0_2.xsize (grid0.coords t) 1; rw [x1]; exact hq
  unfold bB Window.fill
  rw [dif_pos hm]
  exact bblk_apply m c t _ h0

/-! ## What a point writes back -/

/-- Entry y of the result block at point t sits in the result array at row y₀, column 640·t + y₁. -/
theorem oblk_emb (t : Fin cfg0.N) (y : (win0_3.xblock (grid0.coords t)).Idx)
    (h0 : (y 0).val < 32) (h1 : t.val * 640 + (y 1).val < 11008) :
    ((cfg0.win 3).blk t).view.emb y = (ix2 ⟨(y 0).val, h0⟩ ⟨t.val * 640 + (y 1).val, h1⟩ : S32x11008.Idx) := by
  refine funext fun a => Fin.ext ?_
  obtain ⟨-, -, -, -, e0, e1, -⟩ := grid_facts t
  match a with
  | ⟨0, _⟩ => show win0_3.index t 0 * 32 + 1 * (y 0).val = (y 0).val; rw [e0]; omega
  | ⟨1, _⟩ => show win0_3.index t 1 * 640 + 1 * (y 1).val = t.val * 640 + (y 1).val; rw [e1]; omega

/-- What point t writes back is block t of `Gout`. -/
theorem flushed_eq (hpay : PayAt) (c : Dev nD) (t : Fin cfg0.N) :
    (dats m 0 c).flushed 3 t = ((cfg0.win 3).blk t).view.read (Elt Ideal) (Gout m c) := by
  show (cfg0.win 3).cut (grid0.coords t) ((dats m 0 c).after 3 t) = _
  rw [after0_3, outBlk_eq]
  funext y
  obtain ⟨-, -, -, -, -, -, -, -, -, -, x0, x1⟩ := grid_facts t
  have hy0 : (y 0).val < win0_3.xsize (grid0.coords t) 0 := (y 0).isLt
  have hy1 : (y 1).val < win0_3.xsize (grid0.coords t) 1 := (y 1).isLt
  rw [x0] at hy0
  rw [x1] at hy1
  have ht : t.val < 18 := t.isLt
  have hq : (y 1).val < 640 := by split at hy1 <;> omega
  have hn : t.val * 640 + (y 1).val < 11008 := by split at hy1 <;> omega
  have e : win0_3.xinj (grid0.coords t) y = (ix2 ⟨(y 0).val, hy0⟩ ⟨(y 1).val, hq⟩ : S32x640.Idx) :=
    funext fun a => by match a with | ⟨0, _⟩ => rfl | ⟨1, _⟩ => rfl
  rw [View.read_apply, oblk_emb t y hy0 hn]
  show k0_pay1 (F := Ideal) (iblk m c 0 t) (wB m c t) (bB m c t) (win0_3.xinj (grid0.coords t) y)
    = Cert.Posit.foldedAt (fun k => xArr m c (ix2 ⟨(y 0).val, hy0⟩ k))
        (fun k => wArr m c (ix2 ⟨t.val * 640 + (y 1).val, hn⟩ k))
        (bArr m c (ix2 (0 : Fin 1) ⟨t.val * 640 + (y 1).val, hn⟩))
  refine ((congrArg (k0_pay1 (F := Ideal) (iblk m c 0 t) (wB m c t) (bB m c t)) e).trans (hpay _ _ _ _ _)).trans ?_
  have ex : (fun k => iblk m c 0 t (ix2 (⟨(y 0).val, hy0⟩ : Fin 32) k)) = fun k => xArr m c (ix2 ⟨(y 0).val, hy0⟩ k) :=
    funext fun k => xblk_apply m c t _ k
  have ew : (fun k => wB m c t (ix2 (⟨(y 1).val, hq⟩ : Fin 640) k))
      = fun k => wArr m c (ix2 ⟨t.val * 640 + (y 1).val, hn⟩ k) :=
    funext fun k => wB_apply m c t ⟨(y 1).val, hq⟩ k hy1 hn
  have eb : bB m c t (ix2 (0 : Fin 1) (⟨(y 1).val, hq⟩ : Fin 640))
      = bArr m c (ix2 (0 : Fin 1) ⟨t.val * 640 + (y 1).val, hn⟩) :=
    bB_apply m c t ⟨(y 1).val, hq⟩ hy1 hn
  rw [ex, ew, eb]

/-! ## The blocks cover the array -/

/-- An index of the result array is in point t's block iff each coordinate is in the block's range, cut at the
    array's end, on its axis. -/
theorem mem_oblk (t : Fin cfg0.N) (i : S32x11008.Idx) :
    i ∈ ((cfg0.win 3).blk t).view.set ↔ ∀ a : Fin 2, win0_3.index t a * S32x640.size a ≤ (i a).val
      ∧ (i a).val < win0_3.index t a * S32x640.size a + win0_3.xsize (grid0.coords t) a := by
  show i ∈ ((View.whole main_v1).slice (win0_3.rect t)).set ↔ _
  rw [View.set_slice_whole, Rect.mem_set_unit]
  exact Iff.rfl

/-- Column n of the result array lies in the block of point ⌊n / 640⌋ (11008 = 17·640 + 128). -/
theorem cover3 (i : S32x11008.Idx) :
    ∃ t : Fin cfg0.N, (cfg0.win 3).flush t = true ∧ i ∈ ((cfg0.win 3).blk t).view.set := by
  have hi0 : (i 0).val < 32 := (i 0).isLt
  have hi1 : (i 1).val < 11008 := (i 1).isLt
  obtain ⟨t, ht⟩ : ∃ t : Fin cfg0.N, t.val = (i 1).val / 640 :=
    ⟨⟨(i 1).val / 640, by show (i 1).val / 640 < 18; omega⟩, rfl⟩
  refine ⟨t, flush0_3 t, ?_⟩
  rw [mem_oblk]
  obtain ⟨-, -, -, -, e0, e1, -, -, -, -, x0, x1⟩ := grid_facts t
  intro a
  match a with
  | ⟨0, _⟩ =>
    show win0_3.index t 0 * 32 ≤ (i 0).val ∧ (i 0).val < win0_3.index t 0 * 32 + win0_3.xsize (grid0.coords t) 0
    rw [e0, x0]; omega
  | ⟨1, _⟩ =>
    show win0_3.index t 1 * 640 ≤ (i 1).val ∧ (i 1).val < win0_3.index t 1 * 640 + win0_3.xsize (grid0.coords t) 1
    rw [e1, x1, ht]
    split <;> omega

/-- The result array after every write-back is `Gout`. -/
theorem final3 (hpay : PayAt) (c : Dev nD) : (dats m 0 c).arrAt 3 cfg0.N = Gout m c := by
  exact (dats m 0 c).arrAt_eq_of_cover 3 (Gout m c) (fun t _ => flushed_eq m hpay c t) (fun i => cover3 i)

end Cert.KernelIdeal.Hand

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.Payload.lean ====
/-
  The kernel body's stored value, read at one entry of the output block: the contraction of activation row p against
  code row q of the weight block, scaled by 32/15, less 16 times the activation row's sum, plus the dequantised bias
  code at column q. Entry (p, q) depends on row q of the weight block and column q of the bias block only.
-/
import proofs.«425147_j66176856097493_3_alg».proof.Proof.Gen.KernelIdeal.Skeleton
import proofs.«425147_j66176856097493_3_alg».proof.Proof.Spec
import proofs.«425147_j66176856097493_3_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Cert.Lib.KeepdimsColumn

/-! ## The two literals -/

/-- The named scale denotes the rational 32/15 at the ideal values, by the certificate's table. -/
theorem c_32_15 : Named.named (F := Ideal) κ "c_32_15" (φ := .f32) 0x40088889#32 = ((32 / 15 : ℝ) : EReal) :=
  IdealRules.named_const.ideal_named_scalar _ _ _ _ rfl

/-- The offset's bit pattern denotes the real 16. -/
theorem sixteen : FloatOps.ofBits (F := Ideal) .f32 0x41800000#32 = ((16 : ℝ) : EReal) := Cert.Posit.ofBits_16

/-! ## The contraction: row p of the activations against row q of the codes -/

/-- The left operand's row coordinate is the output's row. -/
theorem lhs_axis0 (i : S32x640.Idx) (c : dot_S32x4096_S640x4096_S32x640_1_1_0_0_n_n.contr.Idx) :
    (dot_S32x4096_S640x4096_S32x640_1_1_0_0_n_n.lhsIdx i c 0).val = (i 0).val := by
  unfold DotDims.lhsIdx
  rw [dif_neg (show ¬(0 : Fin S32x4096.rank) ∈ dot_S32x4096_S640x4096_S32x640_1_1_0_0_n_n.lhsBatch by decide), dif_pos (show (0 : Fin S32x4096.rank) ∈ dot_S32x4096_S640x4096_S32x640_1_1_0_0_n_n.lhsNonContracting by decide)]
  rfl

/-- The left operand's column coordinate is the contraction coordinate. -/
theorem lhs_axis1 (i : S32x640.Idx) (c : dot_S32x4096_S640x4096_S32x640_1_1_0_0_n_n.contr.Idx) :
    (dot_S32x4096_S640x4096_S32x640_1_1_0_0_n_n.lhsIdx i c 1).val = (c ⟨0, by decide⟩).val :=
  dot_S32x4096_S640x4096_S32x640_1_1_0_0_n_n.lhsIdx_val_of_single rfl i c

/-- The right operand's row coordinate is the output's column. -/
theorem rhs_axis0 (i : S32x640.Idx) (c : dot_S32x4096_S640x4096_S32x640_1_1_0_0_n_n.contr.Idx) :
    (dot_S32x4096_S640x4096_S32x640_1_1_0_0_n_n.rhsIdx i c 0).val = (i 1).val := by
  unfold DotDims.rhsIdx
  rw [dif_neg (show ¬(0 : Fin S640x4096.rank) ∈ dot_S32x4096_S640x4096_S32x640_1_1_0_0_n_n.rhsBatch by decide), dif_pos (show (0 : Fin S640x4096.rank) ∈ dot_S32x4096_S640x4096_S32x640_1_1_0_0_n_n.rhsNonContracting by decide)]
  rfl

/-- The right operand's column coordinate is the contraction coordinate. -/
theorem rhs_axis1 (i : S32x640.Idx) (c : dot_S32x4096_S640x4096_S32x640_1_1_0_0_n_n.contr.Idx) :
    (dot_S32x4096_S640x4096_S32x640_1_1_0_0_n_n.rhsIdx i c 1).val = (c ⟨0, by decide⟩).val :=
  dot_S32x4096_S640x4096_S32x640_1_1_0_0_n_n.rhsIdx_val_of_single rfl i c

/-- The product into the zero accumulator, at (p, q): the sum over k of left (p, k) times right (q, k). -/
theorem matmul_at (l : FVec Ideal S32x4096 .bf16) (r : FVec Ideal S640x4096 .bf16) (p : Fin 32) (q : Fin 640) :
    matmul dot_S32x4096_S640x4096_S32x640_1_1_0_0_n_n none l r (constant (F := Ideal) S32x640 .f32 0x00000000#32) (ix2 p q)
      = ∑ k : Fin 4096, l (ix2 p k) * r (ix2 q k) := by
  refine (Ideal.matmul_constant_zero_apply dot_S32x4096_S640x4096_S32x640_1_1_0_0_n_n none l r (ix2 p q)).trans ?_
  rw [← Equiv.sum_comp (contrEquiv1 dot_S32x4096_S640x4096_S32x640_1_1_0_0_n_n 4096 rfl rfl).symm]
  refine Finset.sum_congr rfl fun k _ => ?_
  have hk := contrEquiv1_symm_val dot_S32x4096_S640x4096_S32x640_1_1_0_0_n_n 4096 rfl rfl k
  have el : dot_S32x4096_S640x4096_S32x640_1_1_0_0_n_n.lhsIdx (ix2 p q) ((contrEquiv1 dot_S32x4096_S640x4096_S32x640_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S32x4096_S640x4096_S32x640_1_1_0_0_n_n.rhsIdx (ix2 p q) ((contrEquiv1 dot_S32x4096_S640x4096_S32x640_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- With the operands the kernel passes: the activations narrowed (the identity on extended reals) and the codes
    converted (each the signed integer it spells). -/
theorem contraction_at (x : Vec Ideal S32x4096 .f32) (w : Vec Ideal S640x4096 .i32) (p : Fin 32) (q : Fin 640) :
    matmul dot_S32x4096_S640x4096_S32x640_1_1_0_0_n_n none (truncf .bf16 x bitsLt_bf16_f32) (sitofp .bf16 w)
        (constant (F := Ideal) S32x640 .f32 0x00000000#32) (ix2 p q)
      = ∑ k : Fin 4096, x (ix2 p k) * Cert.Posit.code (w (ix2 q k)) :=
  (matmul_at _ _ p q).trans (Finset.sum_congr rfl fun _ _ => rfl)

/-! ## The activation row's sum -/

/-- The sum over the lanes of row p. -/
theorem rowsum_at (v : FVec Ideal S32x4096 .f32) (hφ : FKind.Formats .f32)
    (hacc : (0x00000000#32 : BitVec 32) = 0x00000000#32) (p : Fin 32) :
    multiReduction (F := Ideal) .add [1] S32 v 0x00000000#32 reduces_S32x4096_S32 hφ hacc (ix1 p)
      = ∑ k : Fin 4096, v (ix2 p k) := by
  refine (Ideal.multiReduction_add_single v 0x00000000#32 reduces_S32x4096_S32 hφ hacc (ix1 p)).trans ?_
  refine Finset.sum_congr rfl fun k _ => congrArg v (funext fun a => ?_)
  match a with
  | ⟨0, _⟩ => rfl
  | ⟨1, _⟩ => rfl

/-! ## The three summands at (p, q) -/

/-- The scaled row sum, as the one column it is stored in. -/
theorem column_at (R : FVec Ideal S32 .f32) (s : Ideal .f32) (p : Fin 32) :
    mulf (shapeCast S32x1 R shapeCasts_S32_S32x1) (broadcast S32x1 s) (ix2 p (0 : Fin 1)) = R (ix1 p) * s := by
  rw [mulf_apply, broadcast_apply, shapeCast_a_a1_apply]

/-- The dequantised bias row at column q. -/
theorem bias_at (b : Vec Ideal S1x640 .i32) (c s : Ideal .f32) (q : Fin 640) :
    subf (mulf (sitofp (F := Ideal) .f32 (shapeCast S1x640 b shapeCasts_S1x640_S1x640)) (broadcast S1x640 c))
        (broadcast S1x640 s) (ix2 (0 : Fin 1) q)
      = Cert.Posit.code (b (ix2 (0 : Fin 1) q)) * c - s := by
  rw [subf_apply, mulf_apply, broadcast_apply, broadcast_apply, sitofp_apply, shapeCast_self]
  rfl

/-- The product scaled, less the column, plus the row, at (p, q). -/
theorem combine_at (M : FVec Ideal S32x640 .f32) (c : Ideal .f32) (col : FVec Ideal S32x1 .f32)
    (row : FVec Ideal S1x640 .f32) (p : Fin 32) (q : Fin 640) :
    addf (subf (mulf M (broadcast S32x640 c)) (broadcastTo S32x640 col broadcasts_S32x1_S32x640))
        (broadcastTo S32x640 row broadcasts_S1x640_S32x640) (ix2 p q)
      = (M (ix2 p q) * c - col (ix2 p (0 : Fin 1))) + row (ix2 (0 : Fin 1) q) := by
  rw [addf_apply, subf_apply, mulf_apply, broadcast_apply, broadcastTo_a1_ab_apply, broadcastTo_1b_ab_apply]

/-- The stored block at (p, q). -/
theorem pay_apply (x : Vec Ideal S32x4096 .f32) (w : Vec Ideal S640x4096 .i32) (b : Vec Ideal S1x640 .i32)
    (p : Fin 32) (q : Fin 640) :
    k0_pay1 (F := Ideal) x w b (ix2 p q)
      = Cert.Posit.foldedAt (fun k => x (ix2 p k)) (fun k => w (ix2 q k)) (b (ix2 (0 : Fin 1) q)) := by
  unfold k0_pay1
  refine (combine_at _ _ _ _ p q).trans ?_
  rw [contraction_at, column_at, rowsum_at, bias_at, c_32_15, sixteen]
  rfl

end Cert.KernelIdeal.Hand

end
-- ==== Proof.RefValue.lean ====
/-
  The reference's result, read at one entry: every code is dequantised (code / 15 · 32 − 16), the activations are
  contracted against the dequantised weight row, and the dequantised bias is added.
-/
import proofs.«425147_j66176856097493_3_alg».proof.Proof.Gen.ReferenceIdeal.Read
import proofs.«425147_j66176856097493_3_alg».proof.Proof.Spec

noncomputable section

open scoped BigOperators

namespace Cert.ReferenceIdeal.Hand

open Cert.ReferenceIdeal Cert.ReferenceIdeal.Gen Idealize.ShloMosaic Idealize.ShloMosaic.ValueIdx

/-- One dequantised weight: the code read as a signed integer, divided by 15, times 32, minus 16. -/
theorem weight_apply (x1 : (⟨S11008x4096, .i32⟩ : BufTy).Contents (Elt Ideal)) (i : S11008x4096.Idx) :
    Cert.ReferenceIdeal.Read.val_main_v6 (F := Ideal) x1 i
      = Ideal.div (Cert.Posit.code (x1 i)) ((15 : ℝ) : EReal) * ((32 : ℝ) : EReal) - ((16 : ℝ) : EReal) := by
  rw [Read.val_main_v6_apply, Read.val_main_v4_apply, Read.val_main_v2_apply, Read.val_main_v0_apply,
    Read.val_main_v1_apply, Read.val_main_cst_apply, Read.val_main_v3_apply, Read.val_main_cst_0_apply,
    Read.val_main_v5_apply, Read.val_main_cst_1_apply]
  rw [Ideal.subf_def, Ideal.mulf_def, Ideal.hostDivf_def, Ideal.ofBits_def, Ideal.ofBits_def, Ideal.ofBits_def,
    Cert.Posit.ofBits_15, Cert.Posit.ofBits_16, Cert.Posit.ofBits_32]
  rfl

/-- One dequantised bias: the same affine map of the bias code. -/
theorem bias_apply (x2 : (⟨S11008, .i32⟩ : BufTy).Contents (Elt Ideal)) (i : S11008.Idx) :
    Cert.ReferenceIdeal.Read.val_main_v13 (F := Ideal) x2 i
      = Ideal.div (Cert.Posit.code (x2 i)) ((15 : ℝ) : EReal) * ((32 : ℝ) : EReal) - ((16 : ℝ) : EReal) := by
  rw [Read.val_main_v13_apply, Read.val_main_v11_apply, Read.val_main_v9_apply, Read.val_main_v7_apply,
    Read.val_main_v8_apply, Read.val_main_cst_2_apply, Read.val_main_v10_apply, Read.val_main_cst_3_apply,
    Read.val_main_v12_apply, Read.val_main_cst_4_apply]
  rw [Ideal.subf_def, Ideal.mulf_def, Ideal.hostDivf_def, Ideal.ofBits_def, Ideal.ofBits_def, Ideal.ofBits_def,
    Cert.Posit.ofBits_15, Cert.Posit.ofBits_16, Cert.Posit.ofBits_32]
  rfl

/-- Entry (p, n) of the reference's result is the dequantised contraction of activation row p against weight-code
    row n, plus the dequantised bias code n. -/
theorem ref_apply (x0 : (⟨S32x4096, .f32⟩ : BufTy).Contents (Elt Ideal)) (x1 : (⟨S11008x4096, .i32⟩ : BufTy).Contents (Elt Ideal))
    (x2 : (⟨S11008, .i32⟩ : BufTy).Contents (Elt Ideal)) (p : Fin 32) (n : Fin 11008) :
    Cert.ReferenceIdeal.Read.val_main_v17 (F := Ideal) x0 x1 x2 (ix2 p n)
      = Cert.Posit.dequantAt (fun k => x0 (ix2 p k)) (fun k => x1 (ix2 n k)) (x2 (ix1 n)) := by
  have hl : ∀ k : Fin 4096, Read.lidx_main_v14 (ix2 p n) k = ix2 p k := fun k =>
    funext fun a => Fin.ext (by match a with | ⟨0, _⟩ => rfl | ⟨1, _⟩ => rfl)
  have hr : ∀ k : Fin 4096, Read.ridx_main_v14 (ix2 p n) k = ix2 n k := fun k =>
    funext fun a => Fin.ext (by match a with | ⟨0, _⟩ => rfl | ⟨1, _⟩ => rfl)
  have hb : Read.idx_main_v15 (Read.idx_main_v16 (ix2 p n)) = ix1 n :=
    funext fun a => Fin.ext (by match a with | ⟨0, _⟩ => rfl)
  rw [Read.val_main_v17_apply, Read.val_main_v14_apply, Read.val_main_v16_apply, Read.val_main_v15_apply, hb,
    bias_apply, Ideal.addf_def]
  unfold Cert.Posit.dequantAt
  congr 1
  refine Finset.sum_congr rfl fun k _ => ?_
  rw [hl k, hr k, weight_apply]

end Cert.ReferenceIdeal.Hand

end
-- ==== Proof.Algebra.lean ====
/-
  The law that joins the two programs: for a FINITE activation row, dequantising every code before the contraction
  equals contracting the raw codes and correcting afterwards,
    Σₖ xₖ·(cₖ/15·32 − 16) + (b/15·32 − 16) = (32/15)·Σₖ xₖ·cₖ − 16·Σₖ xₖ + ((32/15)·b − 16).
  Finiteness matters: distributing a product over a sum fails at the infinities of the extended reals.
-/
import proofs.«425147_j66176856097493_3_alg».proof.Proof.Spec

noncomputable section

open scoped BigOperators

namespace Cert.Posit

open Idealize.ShloMosaic

/-- The embedding of the reals in the extended reals commutes with a finite sum: it is additive and sends 0 to 0. -/
private theorem coe_sum_real {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same identity over the reals, where products distribute over sums freely: each summand is
    x·(c/15·32 − 16) = (x·c)·(32/15) − x·16, and the sum of the right sides splits into the two corrected sums. -/
private theorem real_law (r c : Fin 4096 → ℝ) (b : ℝ) :
    (∑ k : Fin 4096, r k * (c k * (1 / 15) * 32 - 16)) + (b * (1 / 15) * 32 - 16)
      = ((∑ k : Fin 4096, r k * c k) * (32 / 15) - (∑ k : Fin 4096, r k) * 16) + (b * (32 / 15) - 16) := by
  rw [Finset.sum_mul, Finset.sum_mul, ← Finset.sum_sub_distrib]
  congr 1
  · refine Finset.sum_congr rfl fun k _ => ?_
    ring
  · ring

/-- For a finite row the reference's entry is the kernel's. -/
theorem dequantAt_eq_foldedAt (xs : Fin 4096 → EReal) (hx : ∀ k, ∃ r : ℝ, xs k = (r : EReal))
    (cs : Fin 4096 → BitVec 32) (bw : BitVec 32) : dequantAt xs cs bw = foldedAt xs cs bw := by
  choose r hr using hx
  obtain rfl : xs = fun k => ((r k : ℝ) : EReal) := funext hr
  -- Both sides are the image of a real number: division by 15 is the product with 1/15, and the embedding of the
  -- reals is a ring map on finite values, so it moves outside every product, difference and finite sum.
  have hl : dequantAt (fun k => ((r k : ℝ) : EReal)) cs bw
      = (((∑ k : Fin 4096, r k * (((cs k).toInt : ℝ) * (1 / 15) * 32 - 16))
          + ((bw.toInt : ℝ) * (1 / 15) * 32 - 16) : ℝ) : EReal) := by
    unfold dequantAt code
    simp only [Ideal.div_coe (show (15 : ℝ) ≠ 0 by norm_num)]
    simp only [← EReal.coe_mul, ← EReal.coe_sub, ← coe_sum_real, ← EReal.coe_add]
  have hr' : foldedAt (fun k => ((r k : ℝ) : EReal)) cs bw
      = ((((∑ k : Fin 4096, r k * ((cs k).toInt : ℝ)) * (32 / 15) - (∑ k : Fin 4096, r k) * 16)
          + ((bw.toInt : ℝ) * (32 / 15) - 16) : ℝ) : EReal) := by
    unfold foldedAt code
    simp only [← EReal.coe_mul, ← EReal.coe_sub, ← coe_sum_real, ← EReal.coe_add]
  rw [hl, hr', real_law]

end Cert.Posit

end
-- ==== Proof.Finite.lean ====
/-
  The precondition, decoded: every entry of the activation matrix is a real number.
-/
import proofs.«425147_j66176856097493_3_alg».proof.Pre_finite_inputs
import proofs.«425147_j66176856097493_3_alg».proof.Proof.Gen.Pre_finite_inputs
import Idealize.ShloMosaic.PureOps.Ideal
import Idealize.ShloMosaic.Lib.ReduceAll
import Idealize.ShloMosaic.Lib.ValueIdx

noncomputable section

namespace Cert.Posit

open Idealize.ShloMosaic

/-- The bit pattern the predicate compares against denotes +∞. -/
private theorem ofBits_inf : Ideal.ofBits .f32 0x7F800000#32 = (⊤ : EReal) := by
  simp [Ideal.ofBits, Ideal.ieee]

/-- If the printed precondition holds of the three arguments, every activation is finite. -/
theorem finite_of_pre (x : FVec Ideal Cert.Pre_finite_inputs.S32x4096 .f32) (W : IVec Cert.Pre_finite_inputs.S11008x4096 32)
    (b : IVec Cert.Pre_finite_inputs.S11008 32)
    (h : Cert.Pre_finite_inputs.fn (F := Ideal) x W b = fun _ => 1#1) : ∀ i, ∃ r : ℝ, x i = (r : EReal) := by
  intro i
  -- the scalar result of the conjunction over both axes is 1, so every compared element is 1
  -- (the scalar shape has a single index: there is no axis to give a coordinate on)
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  -- at the extended reals the element fact reads max (x i) (-(x i)) < +∞
  have hc : Ideal.cmp .olt (max (x i) (-(x i))) (Ideal.ofBits .f32 0x7F800000#32) = 1#1 := hi
  rw [ofBits_inf] at hc
  generalize x i = a at hc ⊢
  induction a using EReal.rec with
  | bot => simp [Ideal.cmp] at hc
  | coe r => exact ⟨r, rfl⟩
  | top => simp [Ideal.cmp] at hc

end Cert.Posit

end
-- ==== Proof.lean ====
/-
  A 4-bit-code dense layer: y = x · dequant(W)ᵀ + dequant(b), with dequant(c) = c / 15 · 32 − 16 applied to integer
  codes stored as 32-bit words.

  The reference dequantises every weight and bias code, contracts the activations against the dequantised weights and
  adds the dequantised bias. The kernel contracts the activations against the RAW codes, 640 output columns per grid
  point, and corrects afterwards: (32/15)·Σₖ xₖcₖ − 16·Σₖ xₖ + ((32/15)·b − 16). For finite activations the two are
  one real number, entry by entry: the affine map distributes over the finite sum. The 11008 output columns are not a
  multiple of 640, so the last block of the weight codes, of the bias codes and of the result overhangs its array; each
  output column depends on its own code row and bias code only, so nothing past the arrays' end reaches a column that
  is written back.

  Claims: the three programs run to their end without a fault and leave their arguments unchanged; the idealized
  kernel is the printed kernel with 32/15 read exactly and a bf16 round trip removed; and at the ideal instance the
  idealized kernel and the idealized reference end with the same result.
-/
import proofs.«425147_j66176856097493_3_alg».proof.Defs
import proofs.«425147_j66176856097493_3_alg».proof.Proof.Gen.Kernel
import proofs.«425147_j66176856097493_3_alg».proof.Proof.Gen.KernelIdeal
import proofs.«425147_j66176856097493_3_alg».proof.Proof.Gen.ReferenceIdeal
import proofs.«425147_j66176856097493_3_alg».proof.Proof.Gen.Pre_finite_inputs
import proofs.«425147_j66176856097493_3_alg».proof.Proof.Gen.ReferenceIdeal.Run
import proofs.«425147_j66176856097493_3_alg».proof.Proof.Gen.ReferenceIdeal.Read
import proofs.«425147_j66176856097493_3_alg».proof.Proof.KernelFrame
import proofs.«425147_j66176856097493_3_alg».proof.Proof.KIRun
import proofs.«425147_j66176856097493_3_alg».proof.Proof.KIFinal
import proofs.«425147_j66176856097493_3_alg».proof.Proof.Payload
import proofs.«425147_j66176856097493_3_alg».proof.Proof.RefValue
import proofs.«425147_j66176856097493_3_alg».proof.Proof.Algebra
import proofs.«425147_j66176856097493_3_alg».proof.Proof.Finite
import Idealize.ShloMosaic.Adequacy
import Idealize.ShloMosaic.Init
import Idealize.ShloMosaic.PureOps.IdealRules

noncomputable section

namespace Cert.Proof

open Idealize.ShloMosaic Idealize.ShloMosaic.TcCoe Idealize.SL.Sem Idealize.ShloMosaic.ValueIdx

/-- The body's stored value at an entry is the folded form of that entry's activation row, code row and bias code. -/
theorem pay : Cert.KernelIdeal.Hand.PayAt := fun x w b p q => Cert.KernelIdeal.Hand.pay_apply x w b p q

/-- The word-level kernel runs, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ pay

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's three rewrites: the scale 32/15 read exactly (twice), and a round trip through bf16 removed. -/
theorem preserves : Cert.preserves_Kernel_KernelIdeal :=
  ⟨IdealRules.named_const.statement Cert.KernelIdeal.κ "c_32_15" .f32 0x40088889#32 ((32 / 15 : ℝ) : EReal) rfl,
    IdealRules.truncf_extf.statement _ .f32 .bf16,
    IdealRules.named_const.statement Cert.KernelIdeal.κ "c_32_15" .f32 0x40088889#32 ((32 / 15 : ℝ) : EReal) rfl⟩

/-- At the ideal instance both programs end at the folded form of the arguments: the kernel by its run, the
    reference because, the activations being finite, dequantising before the contraction equals correcting after it. -/
theorem algebraic : Cert.algebraic_KernelIdeal_ReferenceIdeal := by
  intro m ρ m' ρ' hpre hagree
  refine ⟨fun c => Cert.KernelIdeal.Hand.Kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ pay (Cert.KernelIdeal.Hand.final3 m pay), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v17_eq]
  funext j
  obtain ⟨p, n, rfl⟩ : ∃ (p : Fin 32) (n : Fin 11008), j = ix2 p n := ⟨j 0, j 1, eq_ix2 j⟩
  rw [Cert.ReferenceIdeal.Hand.ref_apply]
  exact Cert.Posit.dequantAt_eq_foldedAt _ (fun k => Cert.Posit.finite_of_pre _ _ _ (hpre c) _) _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
